-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S4000x64 : Shape := ⟨2, ![4000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 65
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000x64, .bf16⟩
  | .hbm, ⟨5, _⟩ => ⟨S64x64, .bf16⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .local _ .vmem, ⟨0, _⟩ => ⟨S4000x64, .bf16⟩
  | .local _ .vmem, ⟨1, _⟩ => ⟨S4000x64, .bf16⟩
  | .local _ .vmem, ⟨2, _⟩ => ⟨S64x64, .bf16⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  dot_S4000x64_S64x64_S4000x64_1_0_0_1_n_n_wf : DotDims.WF S4000x64 S64x64 S4000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .bf16 = 32 ∨ (Rect.block (s := S100000x64) S4000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)

variable [Facts₀]

def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S1700000x1, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.AggKernel.lean ====
/-
  The graph aggregation of a GCN layer as ONE function of the transformed node features and the edge list,
  in the kernel program's vocabulary of shapes and dimension records.
-/
import proofs.«105724_j10161892622613_1_alg».proof.Proof.Gen.KernelIdeal

noncomputable section

open Idealize.ShloMosaic Idealize.ShloMosaic.TcCoe Idealize.SL.Sem

namespace Cert.KernelIdeal.Hand

open Cert.KernelIdeal Cert.KernelIdeal.Gen

variable {F : FTy → Type} [FloatOps F]

/-- The aggregation both programs run between the linear map and the bias: with self loops appended to the edge
    list (sources `row`, destinations `col`), `deg` counts how often each node is a destination,
    `dis = if deg > 0 then deg^(-1/2) else 0`, every edge carries `dis[row] * dis[col]` times the source's row of `xw`,
    and the rows are summed into their destinations. Written operation by operation as the program has it, over the
    transformed features `xw` and the edge list `e`; nothing below ever opens it. -/
def agg (xw : (⟨S100000x64, .f32⟩ : BufTy).Contents (Elt F)) (e : (⟨S2x1600000, .i32⟩ : BufTy).Contents (Elt F)) :
    (⟨S100000x64, .f32⟩ : BufTy).Contents (Elt F) :=
  have loops : (⟨S100000, .i32⟩ : BufTy).Contents (Elt F) := iotaInDim S100000 32 0
  have row : (⟨S1700000, .i32⟩ : BufTy).Contents (Elt F) :=
    concatenate S1700000 0 [⟨S1600000, (shapeCast _ (extractStridedSlice S1x1600000 ![0, 0] e slices_S2x1600000_S1x1600000_0_0) shapeCasts_S1x1600000_S1600000)⟩, ⟨S100000, loops⟩] concatenates_S1600000_S100000_S1700000_d0
  have col : (⟨S1700000, .i32⟩ : BufTy).Contents (Elt F) :=
    concatenate S1700000 0 [⟨S1600000, (shapeCast _ (extractStridedSlice S1x1600000 ![1, 0] e slices_S2x1600000_S1x1600000_1_0) shapeCasts_S1x1600000_S1600000)⟩, ⟨S100000, loops⟩] concatenates_S1600000_S100000_S1700000_d0
  have deg : (⟨S100000, .f32⟩ : BufTy).Contents (Elt F) :=
    Host.scatterAdd scatter_S100000_S1700000x1_S1700000_n_0_0_1 (broadcastInDim S100000 ![] bcast_S_S100000 (constant S_ .f32 0x00000000#32))
      (broadcastInDim S1700000x1 ![0] bcast_S1700000_S1700000x1_0 col) (broadcastInDim S1700000 ![] bcast_S_S1700000 (constant S_ .f32 0x3F800000#32))
  have dis : (⟨S100000, .f32⟩ : BufTy).Contents (Elt F) :=
    select (cmpf .ogt deg (broadcastInDim S100000 ![] bcast_S_S100000 (constant S_ .f32 0x00000000#32))) (Host.rsqrt deg)
      (broadcastInDim S100000 ![] bcast_S_S100000 (id (constant S_ .f32 0x00000000#32)))
  have wrap : (⟨S1700000, .i32⟩ : BufTy).Contents (Elt F) → (⟨S1700000x1, .i32⟩ : BufTy).Contents (Elt F) := fun ix =>
    broadcastInDim S1700000x1 ![0] bcast_S1700000_S1700000x1_0
      (select (cmpi .slt ix (broadcastInDim S1700000 ![] bcast_S_S1700000 (constantI S_ 32 0#32)))
        (addi ix (broadcastInDim S1700000 ![] bcast_S_S1700000 (constantI S_ 32 100000#32))) ix)
  have norm : (⟨S1700000, .f32⟩ : BufTy).Contents (Elt F) :=
    mulf (Host.gather gather_S100000_S1700000x1_S1700000_n_0_n_n_0_1_1 dis (wrap row))
      (Host.gather gather_S100000_S1700000x1_S1700000_n_0_n_n_0_1_1 dis (wrap col))
  have msgs : (⟨S1700000x64, .f32⟩ : BufTy).Contents (Elt F) :=
    mulf (broadcastInDim S1700000x64 ![0, 1] bcast_S1700000x1_S1700000x64_0_1 (broadcastInDim S1700000x1 ![0] bcast_S1700000_S1700000x1_0 norm))
      (Host.gather gather_S100000x64_S1700000x1_S1700000x64_1_0_n_n_0_1_164 xw (wrap row))
  Host.scatterAdd scatter_S100000x64_S1700000x1_S1700000x64_1_0_0_1 (broadcastInDim S100000x64 ![] bcast_S_S100000x64 (constant S_ .f32 0x00000000#32))
    (broadcastInDim S1700000x1 ![0] bcast_S1700000_S1700000x1_0 col) msgs

end Cert.KernelIdeal.Hand

end
-- ==== Proof.Spec.lean ====
/-
  What a GCN layer computes, as functions over the extended reals of the node features x [100000, 64], the edge list
  e [2, 1600000], the weight w [64, 64] and the bias b [64]: the linear map x·w, the degree-normalised aggregation over
  the edges with self loops (Proof/AggKernel.lean), then the bias added to every row and the negative entries cut to zero.
-/
import proofs.«105724_j10161892622613_1_alg».proof.Proof.Gen.KernelIdeal
import proofs.«105724_j10161892622613_1_alg».proof.Proof.AggKernel
import Idealize.ShloMosaic.PureOps.Ideal

noncomputable section

open Idealize.ShloMosaic Idealize.ShloMosaic.TcCoe Idealize.SL.Sem

namespace Cert.KernelIdeal.Hand

open Cert.KernelIdeal Cert.KernelIdeal.Gen

variable {F : FTy → Type} [FloatOps F]

/-- Entry `(p, k)` of a matrix with 64 columns, and entry `(k, n)` of the weight. -/
abbrev at64 {R : Nat} (p : Fin R) (k : Fin 64) : (⟨2, ![R, 64]⟩ : Shape).Idx := fun a => match a with
  | ⟨0, _⟩ => ⟨p.val, p.isLt⟩
  | ⟨1, _⟩ => ⟨k.val, k.isLt⟩

/-- The product of the node features with the weight: entry `(p, n)` is the sum over `k` of `x (p, k) * w (k, n)`. -/
def linear (x : S100000x64.Idx → EReal) (w : S64x64.Idx → EReal) : S100000x64.Idx → EReal :=
  fun i => ∑ k : Fin 64, x (at64 (R := 100000) ⟨(i 0).val, (i 0).isLt⟩ k) * w (at64 (R := 64) k ⟨(i 1).val, (i 1).isLt⟩)

/-- The entry of a one-row matrix under column `n`. -/
abbrev underCol (n : Fin 64) : S1x64.Idx := fun a => match a with
  | ⟨0, _⟩ => ⟨0, Nat.one_pos⟩
  | ⟨1, _⟩ => ⟨n.val, n.isLt⟩

/-- `max (a + b, 0)` entry by entry, the bias row `b` added to every row of `a`. -/
def biasRelu (a : S100000x64.Idx → Elt F .f32) (b : S1x64.Idx → Elt F .f32) : S100000x64.Idx → Elt F .f32 :=
  fun i => FloatOps.maximumf (FloatOps.addf (a i) (b (underCol ⟨(i 1).val, (i 1).isLt⟩))) (Scalar.ofBits .f32 0x00000000#32)

/-- The layer: `relu (agg (x·w) e + b)`. -/
def layer (x : S100000x64.Idx → EReal) (e : (⟨S2x1600000, .i32⟩ : BufTy).Contents (Elt Ideal)) (w : S64x64.Idx → EReal)
    (b : S64.Idx → EReal) : S100000x64.Idx → EReal :=
  biasRelu (F := Ideal) (agg (F := Ideal) (linear x w) e) (shapeCast S1x64 b shapeCasts_S64_S1x64)

end Cert.KernelIdeal.Hand

end
-- ==== Proof.Linear.lean ====
/-
  The first kernel region read as a value over the extended reals: each block of 4000 rows of the product is the
  matrix product of that block of rows with the whole weight, a sum over the 64 shared coordinates into a zero start,
  so the array the region leaves is the full product, entry (p, n) being the sum over k of x(p, k) * w(k, n).
-/
import proofs.«105724_j10161892622613_1_alg».proof.Proof.Gen.KernelIdeal.Frame
import proofs.«105724_j10161892622613_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

open Idealize.ShloMosaic.Pipeline (Dat)

namespace Cert.KernelIdeal.Hand

open Cert.KernelIdeal Cert.KernelIdeal.Gen

theorem no_offsets : (![0, 0] : Fin 2 → Nat) = fun _ => 0 := funext fun a => by fin_cases a <;> rfl

/-! The operand indices of the block's matrix product, coordinate by coordinate. -/

theorem lhs_block_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_block_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_block_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_block_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- What the body computes from its two loaded blocks, read at an entry of the block: the sum over the shared
    coordinate, the zero it starts from gone. -/
theorem body0_apply (x0 : Vec Ideal S4000x64 .bf16) (x1 : Vec Ideal S64x64 .bf16) (j : S4000x64.Idx) :
    k0_pay1 (F := Ideal) x0 x1 j
      = ∑ k : Fin 64, x0 (at64 (R := 4000) ⟨(j 0).val, (j 0).isLt⟩ k) * x1 (at64 (R := 64) k ⟨(j 1).val, (j 1).isLt⟩) := by
  unfold k0_pay1
  simp only [matmul]
  rw [shapeCast_self, shapeCast_self, Ideal.matmul_constant_zero_apply,
    ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx j ((ValueIdx.contrEquiv1 dot_S4000x64_S64x64_S4000x64_1_0_0_1_n_n 64 rfl rfl).symm k) = at64 (R := 4000) ⟨(j 0).val, (j 0).isLt⟩ k := funext fun a => Fin.ext (by
    match a with
    | ⟨0, _⟩ => exact lhs_block_0 _ _
    | ⟨1, _⟩ => exact (lhs_block_1 _ _).trans hk)
  have er : dot_S4000x64_S64x64_S4000x64_1_0_0_1_n_n.rhsIdx j ((ValueIdx.contrEquiv1 dot_S4000x64_S64x64_S4000x64_1_0_0_1_n_n 64 rfl rfl).symm k) = at64 (R := 64) k ⟨(j 1).val, (j 1).isLt⟩ := funext fun a => Fin.ext (by
    match a with
    | ⟨0, _⟩ => exact (rhs_block_0 _ _).trans hk
    | ⟨1, _⟩ => exact rhs_block_1 _ _)
  rw [el, er]

/-- The printed index maps over the grid: point `t` reads and writes row block `t`, and the weight is one block. -/
theorem index_facts0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 :=
  (by decide +kernel : ∀ t : Fin grid0.N, _)

/-- Every row block is some point's. -/
theorem index_onto0 : ∀ q : Fin 25, ∃ t : Fin cfg0.N, win0_2.index t (0 : Fin 2) = q.val ∧ win0_2.index t (1 : Fin 2) = 0 :=
  (by decide +kernel : ∀ q : Fin 25, ∃ t : Fin grid0.N, win0_2.index t (0 : Fin 2) = q.val ∧ win0_2.index t (1 : Fin 2) = 0)

section
variable (V : (c : Dev nD) → (b : Ref sig .tc) → Buf (Elt Ideal) ((c : Thread nD τ).loc b))

/-- What point `t` writes back is block `t` of the product of the two arrays the region finds. -/
theorem flushed0 (c : Dev nD) (t : Fin cfg0.N) :
    (dat0 V c).flushed 2 t = ((cfg0.win 2).blk t).view.read (Elt Ideal) (linear (V c main_v0) (V c main_v1)) := by
  show (cfg0.win 2).cut (grid0.coords t) ((dat0 V c).after 2 t) = _
  rw [after0_2]
  unfold out0_2
  rw [View.canon_unit_zero no_offsets]
  simp only [View.ld_unit_zero (S := S4000x64) no_offsets, View.ld_unit_zero (S := S64x64) no_offsets]
  obtain ⟨e0, e1, e2, e3, e4⟩ := index_facts0 t
  funext j
  show k0_pay1 (F := Ideal) (iblk0 V c 0 t) (iblk0 V c 1 t) j = linear (V c main_v0) (V c main_v1) (((cfg0.win 2).blk t).view.emb j)
  refine (body0_apply (iblk0 V c 0 t) (iblk0 V c 1 t) j).trans ?_
  unfold linear
  refine Finset.sum_congr rfl fun k _ => ?_
  have h0 : ((cfg0.win 0).blk t).view.emb (at64 (R := 4000) ⟨(j 0).val, (j 0).isLt⟩ k)
      = at64 (R := 100000) ⟨((((cfg0.win 2).blk t).view.emb j) 0).val, ((((cfg0.win 2).blk t).view.emb j) 0).isLt⟩ k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 64 + 1 * k.val = k.val; omega
  have h1 : ((cfg0.win 1).blk t).view.emb (at64 (R := 64) k ⟨(j 1).val, (j 1).isLt⟩)
      = at64 (R := 64) k ⟨((((cfg0.win 2).blk t).view.emb j) 1).val, ((((cfg0.win 2).blk t).view.emb j) 1).isLt⟩ := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  refine congrArg₂ (fun a b : EReal => a * b) ?_ ?_
  · show V c main_v0 (((cfg0.win 0).blk t).view.emb (at64 (R := 4000) ⟨(j 0).val, (j 0).isLt⟩ k)) = V c main_v0 _
    rw [h0]
  · show V c main_v1 (((cfg0.win 1).blk t).view.emb (at64 (R := 64) k ⟨(j 1).val, (j 1).isLt⟩)) = V c main_v1 _
    rw [h1]

/-- An index of the product array lies in point `t`'s block iff each coordinate lies in the block's range. -/
theorem mem_block0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v2).slice (win0_2.rect t)).set ↔ _
  rw [View.set_slice_whole, Rect.mem_set_unit]
  exact Iff.rfl

/-- The row blocks tile the product array: row `r` is in block `r / 4000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, q0, q1⟩ := index_onto0 ⟨(i 0).val / 4000, by omega⟩
  refine ⟨t, flush0_2 t, ?_⟩
  rw [mem_block0]
  intro a
  match a with
  | ⟨0, _⟩ => show win0_2.index t (0 : Fin 2) * 4000 ≤ (i 0).val ∧ (i 0).val < win0_2.index t (0 : Fin 2) * 4000 + 4000; simp only [q0]; omega
  | ⟨1, _⟩ => show win0_2.index t (1 : Fin 2) * 64 ≤ (i 1).val ∧ (i 1).val < win0_2.index t (1 : Fin 2) * 64 + 64; omega

/-- The product array after the region's run. -/
theorem final0 (c : Dev nD) : (dat0 V c).arrAt 2 cfg0.N = linear (V c main_v0) (V c main_v1) :=
  (dat0 V c).arrAt_eq_of_cover 2 (linear (V c main_v0) (V c main_v1)) (fun t _ => flushed0 V c t) cover0

end

end Cert.KernelIdeal.Hand

end
-- ==== Proof.BiasRelu.lean ====
/-
  The second kernel region read as a value: every block of the result is the same function of the aggregated
  features and the bias row, so the result array is the aggregated features with the bias added to every row and
  the negative entries cut to zero. For any float family.
-/
import proofs.«105724_j10161892622613_1_alg».proof.Proof.Gen.KernelIdeal.Frame
import proofs.«105724_j10161892622613_1_alg».proof.Proof.Spec
import Idealize.ShloMosaic.Lib.Pipeline.Value

noncomputable section

open Idealize.ShloMosaic Idealize.ShloMosaic.TcCoe Idealize.SL.Sem

open Idealize.ShloMosaic.Pipeline (Dat)

namespace Cert.KernelIdeal.Hand

open Cert.KernelIdeal Cert.KernelIdeal.Gen

variable {F : FTy → Type} [FloatOps F]

theorem zero_offsets : (![0, 0] : Fin 2 → Nat) = fun _ => 0 := funext fun a => by fin_cases a <;> rfl

/-- What the body computes from its two loaded blocks, read at an entry of the block. -/
theorem body1_apply (x0 : Vec F S4000x64 .f32) (x1 : Vec F S1x64 .f32) (j : S4000x64.Idx) :
    k1_pay1 x0 x1 j = FloatOps.maximumf (FloatOps.addf (x0 j) (x1 (underCol ⟨(j 1).val, (j 1).isLt⟩))) (Scalar.ofBits .f32 0x00000000#32) := by
  unfold k1_pay1
  show FloatOps.maximumf (FloatOps.addf (shapeCast S4000x64 x0 shapeCasts_S4000x64_S4000x64 j)
    (broadcastTo S4000x64 (shapeCast S1x64 x1 shapeCasts_S1x64_S1x64) broadcasts_S1x64_S4000x64 j)) _ = _
  rw [shapeCast_self, shapeCast_self,
    broadcastTo_apply x1 broadcasts_S1x64_S4000x64 j (underCol ⟨(j 1).val, (j 1).isLt⟩) (fun a => by
      match a with
      | ⟨0, _⟩ => rfl
      | ⟨1, _⟩ => rfl)]
  rfl

/-- The printed index maps over the grid: point `t` reads and writes row block `t`, and the bias row is one block. -/
theorem index_facts1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0 :=
  (by decide +kernel : ∀ t : Fin grid1.N, _)

/-- Every row block is some point's. -/
theorem index_onto1 : ∀ q : Fin 25, ∃ t : Fin cfg1.N, win1_2.index t (0 : Fin 2) = q.val ∧ win1_2.index t (1 : Fin 2) = 0 :=
  (by decide +kernel : ∀ q : Fin 25, ∃ t : Fin grid1.N, win1_2.index t (0 : Fin 2) = q.val ∧ win1_2.index t (1 : Fin 2) = 0)

section
variable (V : (c : Dev nD) → (b : Ref sig .tc) → Buf (Elt F) ((c : Thread nD τ).loc b))

/-- What point `t` writes back is block `t` of `biasRelu` of the two arrays the region finds. -/
theorem flushed1 (c : Dev nD) (t : Fin cfg1.N) :
    (dat1 V c).flushed 2 t = ((cfg1.win 2).blk t).view.read (Elt F) (biasRelu (V c main_v45) (V c main_v46)) := by
  show (cfg1.win 2).cut (grid1.coords t) ((dat1 V c).after 2 t) = _
  rw [after1_2]
  unfold out1_2
  rw [View.canon_unit_zero zero_offsets]
  simp only [View.ld_unit_zero (S := S4000x64) zero_offsets, View.ld_unit_zero (S := S1x64) zero_offsets]
  obtain ⟨e0, e1, e2, e3, e4⟩ := index_facts1 t
  funext j
  show k1_pay1 (iblk1 V c 0 t) (iblk1 V c 1 t) j = biasRelu (V c main_v45) (V c main_v46) (((cfg1.win 2).blk t).view.emb j)
  refine (body1_apply (iblk1 V c 0 t) (iblk1 V c 1 t) j).trans ?_
  unfold biasRelu
  show FloatOps.maximumf (FloatOps.addf (V c main_v45 (((cfg1.win 0).blk t).view.emb j))
      (V c main_v46 (((cfg1.win 1).blk t).view.emb (underCol ⟨(j 1).val, (j 1).isLt⟩)))) _
    = FloatOps.maximumf (FloatOps.addf (V c main_v45 (((cfg1.win 2).blk t).view.emb j))
      (V c main_v46 (underCol ⟨((((cfg1.win 2).blk t).view.emb j) 1).val, ((((cfg1.win 2).blk t).view.emb j) 1).isLt⟩))) _
  have h0 : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (underCol ⟨(j 1).val, (j 1).isLt⟩)
      = underCol ⟨((((cfg1.win 2).blk t).view.emb j) 1).val, ((((cfg1.win 2).blk t).view.emb j) 1).isLt⟩ := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An index of the result array lies in point `t`'s block iff each coordinate lies in the block's range. -/
theorem mem_block1 (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v47).slice (win1_2.rect t)).set ↔ _
  rw [View.set_slice_whole, Rect.mem_set_unit]
  exact Iff.rfl

/-- The row blocks tile the result array: row `r` is in block `r / 4000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, q0, q1⟩ := index_onto1 ⟨(i 0).val / 4000, by omega⟩
  refine ⟨t, flush1_2 t, ?_⟩
  rw [mem_block1]
  intro a
  match a with
  | ⟨0, _⟩ => show win1_2.index t (0 : Fin 2) * 4000 ≤ (i 0).val ∧ (i 0).val < win1_2.index t (0 : Fin 2) * 4000 + 4000; simp only [q0]; omega
  | ⟨1, _⟩ => show win1_2.index t (1 : Fin 2) * 64 ≤ (i 1).val ∧ (i 1).val < win1_2.index t (1 : Fin 2) * 64 + 64; omega

/-- The result array after the region's run. -/
theorem final1 (c : Dev nD) : (dat1 V c).arrAt 2 cfg1.N = biasRelu (V c main_v45) (V c main_v46) :=
  (dat1 V c).arrAt_eq_of_cover 2 (biasRelu (V c main_v45) (V c main_v46)) (fun t _ => flushed1 V c t) cover1

end

end Cert.KernelIdeal.Hand

end
-- ==== Proof.KernelHost.lean ====
/-
  The host operations of the kernel program read as values, from any contents of the buffers they start from:
  the stretch between the two kernel regions leaves the aggregation of the first region's product over the edge list
  in the buffer the second region reads, and the bias reshaped to one row beside it; the stretch before the first region
  leaves the features and the weight narrowed to bf16; and no stretch writes an argument.
-/
import proofs.«105724_j10161892622613_1_alg».proof.Proof.Gen.KernelIdeal.Launch
import proofs.«105724_j10161892622613_1_alg».proof.Proof.AggKernel
import Idealize.ShloMosaic.Lib.StableHlo.Run

noncomputable section

open Idealize.ShloMosaic Idealize.ShloMosaic.TcCoe Idealize.SL.Sem

namespace Cert.KernelIdeal.Hand

open Cert.KernelIdeal Cert.KernelIdeal.Gen Idealize.ShloMosaic.StableHlo

variable {F : FTy → Type} [FloatOps F]

/-- After the three stretches between the regions the second region's first operand holds the aggregation. -/
theorem host_agg (U : Valuation τ sig (Elt F)) :
    after hostOps1_2 (after hostOps1_1 (after hostOps1 U)) (Proc.devRef .tc main_v45)
      = agg (U (Proc.devRef .tc main_v2)) (U (Proc.devRef .tc main_arg1)) := by
  dsimp only [hostOps1, hostOps1_1, hostOps1_2]
  after_results_simp <;> rfl

/-- and its second operand the bias as a one-row matrix. -/
theorem host_bias (U : Valuation τ sig (Elt F)) :
    after hostOps1_2 (after hostOps1_1 (after hostOps1 U)) (Proc.devRef .tc main_v46)
      = shapeCast S1x64 (U (Proc.devRef .tc main_arg3)) shapeCasts_S64_S1x64 := by
  dsimp only [hostOps1, hostOps1_1, hostOps1_2]
  after_results_simp <;> rfl

/-- Before the first region the features and the weight are narrowed. -/
theorem host_x (U : Valuation τ sig (Elt F)) :
    after hostOps0 U (Proc.devRef .tc main_v0) = truncf .bf16 (U (Proc.devRef .tc main_arg0)) bitsLt_bf16_f32 := by
  dsimp only [hostOps0]
  after_results_simp <;> rfl
theorem host_w (U : Valuation τ sig (Elt F)) :
    after hostOps0 U (Proc.devRef .tc main_v1) = truncf .bf16 (U (Proc.devRef .tc main_arg2)) bitsLt_bf16_f32 := by
  dsimp only [hostOps0]
  after_results_simp <;> rfl

/-- The first stretch writes neither the edge list nor the bias. -/
theorem host_keeps_edges (U : Valuation τ sig (Elt F)) :
    after hostOps0 U (Proc.devRef .tc main_arg1) = U (Proc.devRef .tc main_arg1) := by
  dsimp only [hostOps0]
  after_results_simp <;> rfl
theorem host_keeps_bias (U : Valuation τ sig (Elt F)) :
    after hostOps0 U (Proc.devRef .tc main_arg3) = U (Proc.devRef .tc main_arg3) := by
  dsimp only [hostOps0]
  after_results_simp <;> rfl

end Cert.KernelIdeal.Hand

end
-- ==== Proof.KernelValue.lean ====
/-
  The kernel program's run read as a value over the extended reals: its result array ends holding the layer
  `relu (agg (x·w) e + b)` of the four arguments — the second region's blocks over what the host stretch between the
  regions leaves, that stretch over the first region's product, the product over the narrowed features and weight,
  and a narrowing of float format is the identity on an extended real.
-/
import proofs.«105724_j10161892622613_1_alg».proof.Proof.KernelRun
import proofs.«105724_j10161892622613_1_alg».proof.Proof.Linear
import proofs.«105724_j10161892622613_1_alg».proof.Proof.BiasRelu
import proofs.«105724_j10161892622613_1_alg».proof.Proof.KernelHost
import proofs.«105724_j10161892622613_1_alg».proof.Proof.Spec

noncomputable section

open Idealize.ShloMosaic Idealize.ShloMosaic.TcCoe Idealize.SL.Sem

namespace Cert.KernelIdeal.Hand

open Cert.KernelIdeal Cert.KernelIdeal.Gen Idealize.ShloMosaic.StableHlo

variable (m : (ℓ : Loc nD τ sig) → Buf (Elt Ideal) ℓ) (ρ : Dev nD → PrngReg)

/-- The array the first region leaves is the product of the launch features with the launch weight. -/
theorem product_left (c : Dev nD) :
    W2 m ρ c (Proc.devRef .tc main_v2) = linear (m ((c.tc : Thread nD τ).loc main_arg0)) (m ((c.tc : Thread nD τ).loc main_arg2)) := by
  refine ((W2_arr m ρ c 2).trans (final0 (V1 m ρ) c)).trans ?_
  show linear (after hostOps0 (W0 m ρ c) (Proc.devRef .tc main_v0)) (after hostOps0 (W0 m ρ c) (Proc.devRef .tc main_v1)) = _
  rw [host_x (W0 m ρ c), host_w (W0 m ρ c)]
  rfl

/-- The edge list and the bias are still the launch ones when the first region is left. -/
theorem edges_left (c : Dev nD) : W2 m ρ c (Proc.devRef .tc main_arg1) = m ((c.tc : Thread nD τ).loc main_arg1) :=
  (W2_of_ne m ρ c main_arg1 (by decide)).trans (host_keeps_edges (W0 m ρ c))
theorem bias_left (c : Dev nD) : W2 m ρ c (Proc.devRef .tc main_arg3) = m ((c.tc : Thread nD τ).loc main_arg3) :=
  (W2_of_ne m ρ c main_arg3 (by decide)).trans (host_keeps_bias (W0 m ρ c))

/-- The result array at the last boundary is the layer of the arguments. -/
theorem result_left (c : Dev nD) :
    W6 m ρ c (Proc.devRef .tc main_v47)
      = layer (m ((c.tc : Thread nD τ).loc main_arg0)) (m ((c.tc : Thread nD τ).loc main_arg1))
          (m ((c.tc : Thread nD τ).loc main_arg2)) (m ((c.tc : Thread nD τ).loc main_arg3)) := by
  refine ((W6_arr m ρ c 2).trans (final1 (V5 m ρ) c)).trans ?_
  show biasRelu (after hostOps1_2 (after hostOps1_1 (after hostOps1 (W2 m ρ c))) (Proc.devRef .tc main_v45))
      (after hostOps1_2 (after hostOps1_1 (after hostOps1 (W2 m ρ c))) (Proc.devRef .tc main_v46)) = _
  rw [host_agg (W2 m ρ c), host_bias (W2 m ρ c), product_left m ρ c, edges_left m ρ c, bias_left m ρ c]
  rfl

/-- The run: every weakly fair execution terminates with the result array at the layer of the arguments and the
    arguments as launched. -/
theorem run_value : θ_run defs (onTc (τ := τ) (main (F := Ideal))) ⟨m, fun _ => 0, ρ⟩ (fun r => ∀ c : Dev nD,
      r.2.mem ((c.tc : Thread nD τ).loc main_v47)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_left m ρ c), (h c).2⟩) (Cert.KernelIdeal.Named.run_named m ρ)

end Cert.KernelIdeal.Hand

end
-- ==== Proof.AggReference.lean ====
/-
  The graph aggregation of a GCN layer as ONE function of the transformed node features and the edge list,
  in the reference program's vocabulary of shapes and dimension records.
-/
import proofs.«105724_j10161892622613_1_alg».proof.Proof.Gen.ReferenceIdeal

noncomputable section

open Idealize.ShloMosaic Idealize.ShloMosaic.TcCoe Idealize.SL.Sem

namespace Cert.ReferenceIdeal.Hand

open Cert.ReferenceIdeal Cert.ReferenceIdeal.Gen

variable {F : FTy → Type} [FloatOps F]

/-- The aggregation both programs run between the linear map and the bias: with self loops appended to the edge
    list (sources `row`, destinations `col`), `deg` counts how often each node is a destination,
    `dis = if deg > 0 then deg^(-1/2) else 0`, every edge carries `dis[row] * dis[col]` times the source's row of `xw`,
    and the rows are summed into their destinations. Written operation by operation as the program has it, over the
    transformed features `xw` and the edge list `e`; nothing below ever opens it. -/
def agg (xw : (⟨S100000x64, .f32⟩ : BufTy).Contents (Elt F)) (e : (⟨S2x1600000, .i32⟩ : BufTy).Contents (Elt F)) :
    (⟨S100000x64, .f32⟩ : BufTy).Contents (Elt F) :=
  have loops : (⟨S100000, .i32⟩ : BufTy).Contents (Elt F) := iotaInDim S100000 32 0
  have row : (⟨S1700000, .i32⟩ : BufTy).Contents (Elt F) :=
    concatenate S1700000 0 [⟨S1600000, (shapeCast _ (extractStridedSlice S1x1600000 ![0, 0] e slices_S2x1600000_S1x1600000_0_0) shapeCasts_S1x1600000_S1600000)⟩, ⟨S100000, loops⟩] concatenates_S1600000_S100000_S1700000_d0
  have col : (⟨S1700000, .i32⟩ : BufTy).Contents (Elt F) :=
    concatenate S1700000 0 [⟨S1600000, (shapeCast _ (extractStridedSlice S1x1600000 ![1, 0] e slices_S2x1600000_S1x1600000_1_0) shapeCasts_S1x1600000_S1600000)⟩, ⟨S100000, loops⟩] concatenates_S1600000_S100000_S1700000_d0
  have deg : (⟨S100000, .f32⟩ : BufTy).Contents (Elt F) :=
    Host.scatterAdd scatter_S100000_S1700000x1_S1700000_n_0_0_1 (broadcastInDim S100000 ![] bcast_S_S100000 (constant S_ .f32 0x00000000#32))
      (broadcastInDim S1700000x1 ![0] bcast_S1700000_S1700000x1_0 col) (broadcastInDim S1700000 ![] bcast_S_S1700000 (constant S_ .f32 0x3F800000#32))
  have dis : (⟨S100000, .f32⟩ : BufTy).Contents (Elt F) :=
    select (cmpf .ogt deg (broadcastInDim S100000 ![] bcast_S_S100000 (constant S_ .f32 0x00000000#32))) (Host.rsqrt deg)
      (broadcastInDim S100000 ![] bcast_S_S100000 (id (constant S_ .f32 0x00000000#32)))
  have wrap : (⟨S1700000, .i32⟩ : BufTy).Contents (Elt F) → (⟨S1700000x1, .i32⟩ : BufTy).Contents (Elt F) := fun ix =>
    broadcastInDim S1700000x1 ![0] bcast_S1700000_S1700000x1_0
      (select (cmpi .slt ix (broadcastInDim S1700000 ![] bcast_S_S1700000 (constantI S_ 32 0#32)))
        (addi ix (broadcastInDim S1700000 ![] bcast_S_S1700000 (constantI S_ 32 100000#32))) ix)
  have norm : (⟨S1700000, .f32⟩ : BufTy).Contents (Elt F) :=
    mulf (Host.gather gather_S100000_S1700000x1_S1700000_n_0_n_n_0_1_1 dis (wrap row))
      (Host.gather gather_S100000_S1700000x1_S1700000_n_0_n_n_0_1_1 dis (wrap col))
  have msgs : (⟨S1700000x64, .f32⟩ : BufTy).Contents (Elt F) :=
    mulf (broadcastInDim S1700000x64 ![0, 1] bcast_S1700000x1_S1700000x64_0_1 (broadcastInDim S1700000x1 ![0] bcast_S1700000_S1700000x1_0 norm))
      (Host.gather gather_S100000x64_S1700000x1_S1700000x64_1_0_n_n_0_1_164 xw (wrap row))
  Host.scatterAdd scatter_S100000x64_S1700000x1_S1700000x64_1_0_0_1 (broadcastInDim S100000x64 ![] bcast_S_S100000x64 (constant S_ .f32 0x00000000#32))
    (broadcastInDim S1700000x1 ![0] bcast_S1700000_S1700000x1_0 col) msgs

end Cert.ReferenceIdeal.Hand

end
-- ==== Proof.RefValue.lean ====
/-
  The reference's result read in three stages: its composed term is the bias added to, and the negative entries cut from,
  the aggregation (Proof/AggReference.lean) of the host's product of the features with the weight; and over the
  extended reals that product is, entry by entry, the sum over the 64 shared coordinates.
-/
import proofs.«105724_j10161892622613_1_alg».proof.Proof.RefRun
import proofs.«105724_j10161892622613_1_alg».proof.Proof.AggReference
import Idealize.ShloMosaic.Lib.ValueIdx
import Idealize.ShloMosaic.PureOps.Ideal.Laws

noncomputable section

open Idealize.ShloMosaic Idealize.ShloMosaic.TcCoe Idealize.SL.Sem

namespace Cert.ReferenceIdeal.Hand

open Cert.ReferenceIdeal Cert.ReferenceIdeal.Gen Cert.ReferenceIdeal.Value

variable {F : FTy → Type} [FloatOps F]

/-- The reference's result as stages: product, aggregation, bias, cut at zero. -/
def stages (x : (⟨S100000x64, .f32⟩ : BufTy).Contents (Elt F)) (e : (⟨S2x1600000, .i32⟩ : BufTy).Contents (Elt F))
    (w : (⟨S64x64, .f32⟩ : BufTy).Contents (Elt F)) (b : (⟨S64, .f32⟩ : BufTy).Contents (Elt F)) :
    (⟨S100000x64, .f32⟩ : BufTy).Contents (Elt F) :=
  maximumf (addf (agg (Host.dotGeneral dot_S100000x64_S64x64_S100000x64_1_0_0_1_n_n none x w) e)
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The run's composed term is those stages of the arguments. -/
theorem res_stages (m : (ℓ : Loc nD τ sig) → Buf (Elt F) ℓ) (c : Dev nD) :
    res_main_v47 m c = stages (m ((c.tc : Thread nD τ).loc main_arg0)) (m ((c.tc : Thread nD τ).loc main_arg1))
      (m ((c.tc : Thread nD τ).loc main_arg2)) (m ((c.tc : Thread nD τ).loc main_arg3)) := by
  unfold res_main_v47 stages agg
  rfl

/-! The operand indices of the host's product, coordinate by coordinate. -/

theorem lhs_full_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_full_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_full_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_full_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Entry `(p, k)` of a matrix with 64 columns. -/
abbrev entry {R : Nat} (p : Fin R) (k : Fin 64) : (⟨2, ![R, 64]⟩ : Shape).Idx := fun a => match a with
  | ⟨0, _⟩ => ⟨p.val, p.isLt⟩
  | ⟨1, _⟩ => ⟨k.val, k.isLt⟩

/-- Over the extended reals the host's product at `(p, n)` is the sum over `k` of `x (p, k) * w (k, n)`. -/
theorem product_apply (x : FVec Ideal S100000x64 .f32) (w : FVec Ideal S64x64 .f32) (i : S100000x64.Idx) :
    Host.dotGeneral (F := Ideal) (φ₁ := .f32) (φ₂ := .f32) dot_S100000x64_S64x64_S100000x64_1_0_0_1_n_n none x w i
      = ∑ k : Fin 64, x (entry (R := 100000) ⟨(i 0).val, (i 0).isLt⟩ k) * w (entry (R := 64) k ⟨(i 1).val, (i 1).isLt⟩) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = entry (R := 100000) ⟨(i 0).val, (i 0).isLt⟩ k := funext fun a => Fin.ext (by
    match a with
    | ⟨0, _⟩ => exact lhs_full_0 _ _
    | ⟨1, _⟩ => exact (lhs_full_1 _ _).trans hk)
  have er : dot_S100000x64_S64x64_S100000x64_1_0_0_1_n_n.rhsIdx i ((ValueIdx.contrEquiv1 dot_S100000x64_S64x64_S100000x64_1_0_0_1_n_n 64 rfl rfl).symm k) = entry (R := 64) k ⟨(i 1).val, (i 1).isLt⟩ := funext fun a => Fin.ext (by
    match a with
    | ⟨0, _⟩ => exact (rhs_full_0 _ _).trans hk
    | ⟨1, _⟩ => exact rhs_full_1 _ _)
  rw [el, er]

end Cert.ReferenceIdeal.Hand

end
-- ==== Proof.Product.lean ====
/-
  Over the extended reals the host's product of the features with the weight is the linear map of Proof/Spec.lean: at
  every entry both are the sum over the 64 shared coordinates of the products.
-/
import proofs.«105724_j10161892622613_1_alg».proof.Proof.RefValue
import proofs.«105724_j10161892622613_1_alg».proof.Proof.Spec

noncomputable section

open Idealize.ShloMosaic Idealize.ShloMosaic.TcCoe Idealize.SL.Sem

namespace Cert.Hand

open Cert.KernelIdeal.Hand (linear at64)

/-- The two ways of writing entry `(p, k)` of a matrix with 64 columns are one. -/
theorem entry_eq_at64 {R : Nat} (p : Fin R) (k : Fin 64) : Cert.ReferenceIdeal.Hand.entry p k = at64 p k := rfl

/-- The host's product is the linear map. -/
theorem product_is_linear (x : FVec Ideal Cert.ReferenceIdeal.S100000x64 .f32) (w : FVec Ideal Cert.ReferenceIdeal.S64x64 .f32) :
    Host.dotGeneral (F := Ideal) (φ₁ := .f32) (φ₂ := .f32) Cert.ReferenceIdeal.dot_S100000x64_S64x64_S100000x64_1_0_0_1_n_n none x w = linear x w := by
  funext i
  rw [Cert.ReferenceIdeal.Hand.product_apply]
  unfold linear
  refine Finset.sum_congr rfl fun k _ => ?_
  rw [entry_eq_at64, entry_eq_at64]

end Cert.Hand

end
-- ==== Proof.BiasRead.lean ====
/-
  The bias reaches entry (p, n) of the result as its entry n in both programs: broadcast to a row and then along the
  rows, or reshaped to one row and read under column n.
-/
import proofs.«105724_j10161892622613_1_alg».proof.Proof.Gen.ReferenceIdeal
import proofs.«105724_j10161892622613_1_alg».proof.Proof.Spec
import Idealize.ShloMosaic.Lib.Pipeline.Value

noncomputable section

open Idealize.ShloMosaic Idealize.ShloMosaic.TcCoe Idealize.SL.Sem

namespace Cert.Hand

open Cert.KernelIdeal.Hand (underCol)

variable {α : Type}

/-- Entry `n` of a vector of 64. -/
abbrev entry1 (n : Fin 64) : (⟨1, ![64]⟩ : Shape).Idx := fun a => match a with
  | ⟨0, _⟩ => ⟨n.val, n.isLt⟩

/-- The bias broadcast to a row and then along the rows, read at `(p, n)`, is its entry `n`. -/
theorem bias_rows_apply (b : Cert.ReferenceIdeal.S64.Idx → α) (i : Cert.ReferenceIdeal.S100000x64.Idx) :
    broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b) i
      = b (entry1 ⟨(i 1).val, (i 1).isLt⟩) := by
  rw [broadcastInDim_apply _ _ _ i (underCol ⟨(i 1).val, (i 1).isLt⟩) (fun a => by
      match a with
      | ⟨0, _⟩ => rfl
      | ⟨1, _⟩ => rfl),
    broadcastInDim_apply _ _ b (underCol ⟨(i 1).val, (i 1).isLt⟩) (entry1 ⟨(i 1).val, (i 1).isLt⟩) (fun a => by
      match a with
      | ⟨0, _⟩ => rfl)]

/-- The bias reshaped to one row, read under column `n`, is its entry `n`. -/
theorem bias_row_apply (b : Cert.KernelIdeal.S64.Idx → α) (n : Fin 64) :
    shapeCast Cert.KernelIdeal.S1x64 b Cert.KernelIdeal.Facts₀.shapeCasts_S64_S1x64 (underCol n) = b (entry1 n) :=
  shapeCast_apply b _ (underCol n) (entry1 n) (by
    rewrite [Shape.rowMajor_val_one, Shape.rowMajor_val_two]
    show n.val = 0 * 64 + n.val
    omega)

end Cert.Hand

end
-- ==== Proof.AggSame.lean ====
/-
  The aggregation written in the kernel program's vocabulary and in the reference program's is one function: the two
  programs name the same shapes and the same scatter and gather dimension records.
-/
import proofs.«105724_j10161892622613_1_alg».proof.Proof.AggKernel
import proofs.«105724_j10161892622613_1_alg».proof.Proof.AggReference

noncomputable section

open Idealize.ShloMosaic Idealize.ShloMosaic.TcCoe Idealize.SL.Sem

namespace Cert.Hand

variable {F : FTy → Type} [FloatOps F]

theorem agg_same (xw : (⟨Cert.KernelIdeal.S100000x64, .f32⟩ : BufTy).Contents (Elt F)) (e : (⟨Cert.KernelIdeal.S2x1600000, .i32⟩ : BufTy).Contents (Elt F)) :
    Cert.KernelIdeal.Hand.agg xw e = Cert.ReferenceIdeal.Hand.agg xw e := rfl

end Cert.Hand

end
-- ==== Proof.Bridge.lean ====
/-
  The two programs compute one function over the extended reals. The reference's three stages are the layer of
  Proof/Spec.lean: the host's product is the linear map, the aggregation is the same function in either program's
  vocabulary, the bias reaches every entry of a column as the same entry of the bias, and the cut at zero is the same
  maximum with the same zero.
-/
import proofs.«105724_j10161892622613_1_alg».proof.Proof.Product
import proofs.«105724_j10161892622613_1_alg».proof.Proof.BiasRead
import proofs.«105724_j10161892622613_1_alg».proof.Proof.AggSame

noncomputable section

open Idealize.ShloMosaic Idealize.ShloMosaic.TcCoe Idealize.SL.Sem

namespace Cert.Hand

open Cert.KernelIdeal.Hand (linear layer biasRelu underCol)

/-- Adding the bias and cutting at zero, the reference's way and the kernel's, on one array `A`. -/
theorem tail_same (A : Cert.ReferenceIdeal.S100000x64.Idx → EReal) (b : Cert.ReferenceIdeal.S64.Idx → EReal) :
    maximumf (F := Ideal) (φ := .f32) (addf (F := Ideal) (φ := .f32) A
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b)))
      (broadcastInDim Cert.ReferenceIdeal.S100000x64 ![] Cert.ReferenceIdeal.Facts₀.bcast_S_S100000x64 (constant (F := Ideal) Cert.ReferenceIdeal.S_ .f32 0x00000000#32))
    = biasRelu (F := Ideal) A (shapeCast Cert.KernelIdeal.S1x64 b Cert.KernelIdeal.Facts₀.shapeCasts_S64_S1x64) := by
  funext i
  have hb := (bias_rows_apply b i).trans (bias_row_apply b ⟨(i 1).val, (i 1).isLt⟩).symm
  unfold biasRelu
  show FloatOps.maximumf (F := Ideal) (FloatOps.addf (F := Ideal) (A i) (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b) i)) (FloatOps.ofBits (F := Ideal) .f32 0x00000000#32) = _
  rw [hb]

/-- The reference's stages are the layer. -/
theorem stages_eq_layer (x : FVec Ideal Cert.ReferenceIdeal.S100000x64 .f32) (e : (⟨Cert.ReferenceIdeal.S2x1600000, .i32⟩ : BufTy).Contents (Elt Ideal))
    (w : FVec Ideal Cert.ReferenceIdeal.S64x64 .f32) (b : FVec Ideal Cert.ReferenceIdeal.S64 .f32) :
    Cert.ReferenceIdeal.Hand.stages (F := Ideal) x e w b = layer x e w b := by
  unfold Cert.ReferenceIdeal.Hand.stages layer
  rw [product_is_linear, ← agg_same]
  exact tail_same _ b

end Cert.Hand

end
-- ==== Proof.lean ====
/-
  A GCN layer, `relu (A (x·w) + b)` with `A` the symmetric degree-normalised aggregation over the edges with self loops:
  the kernel program computes `x·w` in one tiled kernel (row blocks of 4000, bf16 operands, f32 accumulation into zero),
  aggregates on the host with the reference's own scatter and gather operations, and adds the bias and cuts at zero
  in a second tiled kernel; the reference does all of it on the host. Over the extended reals a change of float format
  is the identity and a matrix product, tiled or whole, is the same finite sum at every entry; the aggregation is the
  same operations on both sides and is never opened; the bias reaches entry (p, n) as b(n) either way. So both
  programs end with the one function `layer` (Proof/Spec.lean) of the arguments. The precondition is not used: no step
  needs a law that fails at an infinity.

  The frames of the two kernel programs are the generated ones; the reference's is its run with the result dropped;
  the idealization rewrote nothing, so there is nothing to preserve.
-/
import proofs.«105724_j10161892622613_1_alg».proof.Defs
import proofs.«105724_j10161892622613_1_alg».proof.Proof.Gen.Kernel
import proofs.«105724_j10161892622613_1_alg».proof.Proof.Gen.Kernel.Skeleton
import proofs.«105724_j10161892622613_1_alg».proof.Proof.Gen.Kernel.Launch
import proofs.«105724_j10161892622613_1_alg».proof.Proof.Gen.Kernel.Points
import proofs.«105724_j10161892622613_1_alg».proof.Proof.Gen.Kernel.Frame
import proofs.«105724_j10161892622613_1_alg».proof.Proof.Gen.KernelIdeal
import proofs.«105724_j10161892622613_1_alg».proof.Proof.Gen.KernelIdeal.Skeleton
import proofs.«105724_j10161892622613_1_alg».proof.Proof.Gen.KernelIdeal.Launch
import proofs.«105724_j10161892622613_1_alg».proof.Proof.Gen.KernelIdeal.Points
import proofs.«105724_j10161892622613_1_alg».proof.Proof.Gen.KernelIdeal.Frame
import proofs.«105724_j10161892622613_1_alg».proof.Proof.Gen.ReferenceIdeal
import proofs.«105724_j10161892622613_1_alg».proof.Proof.Gen.Pre_finite_inputs
import proofs.«105724_j10161892622613_1_alg».proof.Proof.KernelValue
import proofs.«105724_j10161892622613_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the layer of the arguments: the kernel program by its run read as a value, the
    reference by its run's composed term read in stages, and the stages are the layer. -/
theorem algebraic : Cert.algebraic_KernelIdeal_ReferenceIdeal := by
  intro m ρ m' ρ' _ hagree
  refine ⟨fun c => Cert.KernelIdeal.Hand.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.res_stages, (hagree c).1, (hagree c).2.1, (hagree c).2.2.1, (hagree c).2.2.2]
  exact Cert.Hand.stages_eq_layer _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
